-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x256x1024 : Shape := ⟨3, ![1024, 256, 1024]⟩
abbrev S1024 : Shape := ⟨1, ![1024]⟩
abbrev S1x1024 : Shape := ⟨2, ![1, 1024]⟩
abbrev S1 : Shape := ⟨1, ![1]⟩
abbrev S_ : Shape := ⟨0, ![]⟩

class Facts : Prop where
  bcast_S_S1024x256x1024 : S_.BroadcastsInDim S1024x256x1024 (![] : Fin 0 → Fin S1024x256x1024.rank)
  reducesTo_S1024x256x1024_S_d0_1_2 : S1024x256x1024.ReducesTo [0, 1, 2] S_
  h_S_ : 0 < S_.numel
  bcast_S_S1024 : S_.BroadcastsInDim S1024 (![] : Fin 0 → Fin S1024.rank)
  reducesTo_S1024_S_d0 : S1024.ReducesTo [0] S_
  bcast_S_S1x1024 : S_.BroadcastsInDim S1x1024 (![] : Fin 0 → Fin S1x1024.rank)
  reducesTo_S1x1024_S_d0_1 : S1x1024.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S1 .f32) (main_v13 : IVec S_ 1) (main_v16 : IVec S1x1024 1) : IVec S_ 1 :=
  let main_c_5 : IVec S_ 1 := constantI S_ 1 1#1
  let main_v17 : IVec S_ 1 := (fun x v => Host.reduce IntOp.andi x v reducesTo_S1x1024_S_d0_1 h_S_) main_v16 main_c_5
  let main_v18 : IVec S_ 1 := andi main_v13 main_v17
  let main_v19 : FVec F S1 .f32 := Host.absf main_arg4
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S1024x256x1024 .f32) (main_arg1 : FVec F S1024 .f32) (main_arg2 : FVec F S1024 .f32) (main_arg3 : FVec F S1x1024 .f32) (main_arg4 : FVec F S1 .f32) : IVec S_ 1 :=
  let main_v0 : FVec F S1024x256x1024 .f32 := Host.absf main_arg0
  let main_cst : FVec F S_ .f32 := constant S_ .f32 0x7F800000#32
  let main_v1 : FVec F S1024x256x1024 .f32 := broadcastInDim S1024x256x1024 ![] bcast_S_S1024x256x1024 main_cst
  let main_v2 : IVec S1024x256x1024 1 := cmpf .olt main_v0 main_v1
  let main_c : IVec S_ 1 := constantI S_ 1 1#1
  let main_v3 : IVec S_ 1 := (fun x v => Host.reduce IntOp.andi x v reducesTo_S1024x256x1024_S_d0_1_2 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1x1024 .f32 := Host.absf main_arg3
  let main_cst_4 : FVec F S_ .f32 := constant S_ .f32 0x7F800000#32
  let main_v15 : FVec F S1x1024 .f32 := broadcastInDim S1x1024 ![] bcast_S_S1x1024 main_cst_4
  let main_v16 : IVec S1x1024 1 := cmpf .olt main_v14 main_v15
  fn_part1 (F := F) main_arg4 main_v13 main_v16
-- ==== Kernel.lean ====
abbrev S1024x256x1024 : Shape := ⟨3, ![1024, 256, 1024]⟩
abbrev S1024 : Shape := ⟨1, ![1024]⟩
abbrev S1x1024 : Shape := ⟨2, ![1, 1024]⟩
abbrev S1 : Shape := ⟨1, ![1]⟩
abbrev S1x1 : Shape := ⟨2, ![1, 1]⟩
abbrev S1024x1 : Shape := ⟨2, ![1024, 1]⟩
abbrev S128x32x1024 : Shape := ⟨3, ![128, 32, 1024]⟩
abbrev S128x1 : Shape := ⟨2, ![128, 1]⟩
abbrev S128x1024 : Shape := ⟨2, ![128, 1024]⟩
abbrev S128 : Shape := ⟨1, ![128]⟩

abbrev nBuf : Space → Nat
  | .hbm => 9
  | .vmem => 9
  | .smem => 0
  | _ => 0

abbrev bufTy : (tb : Table) → Fin (tcTables nBuf tb) → BufTy
  | .hbm, ⟨0, _⟩ => ⟨S1024x256x1024, .f32⟩
  | .hbm, ⟨1, _⟩ => ⟨S1024, .f32⟩
  | .hbm, ⟨2, _⟩ => ⟨S1024, .f32⟩
  | .hbm, ⟨3, _⟩ => ⟨S1x1024, .f32⟩
  | .hbm, ⟨4, _⟩ => ⟨S1, .f32⟩
  | .hbm, ⟨5, _⟩ => ⟨S1x1024, .f32⟩
  | .hbm, ⟨6, _⟩ => ⟨S1x1024, .f32⟩
  | .hbm, ⟨7, _⟩ => ⟨S1x1, .f32⟩
  | .hbm, ⟨8, _⟩ => ⟨S1024x1, .f32⟩
  | .local _ .vmem, ⟨0, _⟩ => ⟨S128x32x1024, .f32⟩
  | .local _ .vmem, ⟨1, _⟩ => ⟨S128x32x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1, .f32⟩
  | .local _ .vmem, ⟨6, _⟩ => ⟨S128x1, .f32⟩
  | .local _ .vmem, ⟨7, _⟩ => ⟨S128x1, .f32⟩
  | .local _ .vmem, ⟨8, _⟩ => ⟨S128x1024, .f32⟩
  | _, _ => ⟨S1024x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v10 : BitVec 1 := Scalar.cmpi .eq arg1 c7_i32
  let v11 : BitVec 32 := Scalar.extui v10
  let c0_i32_7 : BitVec 32 := 0#32
  let v12 : BitVec 1 := Scalar.cmpi .ne v11 c0_i32_7
  v12

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S128x32x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S128x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  shapeCasts_S1024_S1x1024 : S1024.ShapeCasts S1x1024
  shapeCasts_S1_S1x1 : S1.ShapeCasts S1x1
  inb_S128x1024_S128x1024_0_0 : ∀ a, (![0, 0] : Fin 2 → Nat) a + S128x1024.size a ≤ S128x1024.size a
  h_S128x1024 : 0 < S128x1024.numel
  shapeCasts_S128x1024_S128x1024 : S128x1024.ShapeCasts S128x1024
  inb_S128x32x1024_S128x32x1024_0_0_0 : ∀ a, (![0, 0, 0] : Fin 3 → Nat) a + S128x32x1024.size a ≤ S128x32x1024.size a
  h_S128x32x1024 : 0 < S128x32x1024.numel
  reduces_S128x32x1024_S128x1024 : S128x32x1024.Reduces [1] S128x1024
  reduces_S128x1024_S128 : S128x1024.Reduces [1] S128
  shapeCasts_S128_S128x1 : S128.ShapeCasts S128x1
  broadcasts_S128x1_S128x1024 : S128x1.Broadcasts S128x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S128x1024 : S1x1024.Broadcasts S128x1024
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S128x1 : S1x1.Broadcasts S128x1
  inb_S128x1_S128x1_0_0 : ∀ a, (![0, 0] : Fin 2 → Nat) a + S128x1.size a ≤ S128x1.size a
  h_S128x1 : 0 < S128x1.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x32x1024.size a ≤ S1024x256x1024.size a
  hwx0_0 : ∀ i : grid0.Coords, EltTy.bits .f32 = 32 ∨ (Rect.block (s := S1024x256x1024) S128x32x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1024.size a ≤ S1x1024.size a
  hwx0_1 : ∀ i : grid0.Coords, EltTy.bits .f32 = 32 ∨ (Rect.block (s := S1x1024) S1x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S128x1.size a ≤ S1024x1.size a
  hwx0_5 : ∀ i : grid0.Coords, EltTy.bits .f32 = 32 ∨ (Rect.block (s := S1024x1) S128x1.size (cc0_transform_5 i) (hinb0_5 i)).WholeWords (EltTy.packing .f32)

variable [Facts₀]

abbrev win0_0 : Pipeline.Window sig grid0 :=
  Pipeline.Window.ofSpec (Memref.whole main_arg0) S128x32x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S128x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S1024x256x1024 : Shape := ⟨3, ![1024, 256, 1024]⟩
abbrev S1024 : Shape := ⟨1, ![1024]⟩
abbrev S1x1024 : Shape := ⟨2, ![1, 1024]⟩
abbrev S1 : Shape := ⟨1, ![1]⟩
abbrev S_ : Shape := ⟨0, ![]⟩
abbrev S1024x1024 : Shape := ⟨2, ![1024, 1024]⟩
abbrev S1024x1 : Shape := ⟨2, ![1024, 1]⟩
abbrev S1x1 : Shape := ⟨2, ![1, 1]⟩

abbrev nBuf : Space → Nat
  | .hbm => 48
  | .vmem => 0
  | .smem => 0
  | _ => 0

abbrev bufTy : (tb : Table) → Fin (tcTables nBuf tb) → BufTy
  | .hbm, ⟨0, _⟩ => ⟨S1024x256x1024, .f32⟩
  | .hbm, ⟨1, _⟩ => ⟨S1024, .f32⟩
  | .hbm, ⟨2, _⟩ => ⟨S1024, .f32⟩
  | .hbm, ⟨3, _⟩ => ⟨S1x1024, .f32⟩
  | .hbm, ⟨4, _⟩ => ⟨S1, .f32⟩
  | .hbm, ⟨5, _⟩ => ⟨S_, .f32⟩
  | .hbm, ⟨6, _⟩ => ⟨S1024x1024, .f32⟩
  | .hbm, ⟨7, _⟩ => ⟨S_, .f32⟩
  | .hbm, ⟨8, _⟩ => ⟨S1024, .f32⟩
  | .hbm, ⟨9, _⟩ => ⟨S1024x1, .f32⟩
  | .hbm, ⟨10, _⟩ => ⟨S_, .f32⟩
  | .hbm, ⟨11, _⟩ => ⟨S1024x1, .f32⟩
  | .hbm, ⟨12, _⟩ => ⟨S1024x1, .f32⟩
  | .hbm, ⟨13, _⟩ => ⟨S1024x1024, .f32⟩
  | .hbm, ⟨14, _⟩ => ⟨S1024x1024, .f32⟩
  | .hbm, ⟨15, _⟩ => ⟨S1024x1024, .f32⟩
  | .hbm, ⟨16, _⟩ => ⟨S_, .f32⟩
  | .hbm, ⟨17, _⟩ => ⟨S1024, .f32⟩
  | .hbm, ⟨18, _⟩ => ⟨S1024x1, .f32⟩
  | .hbm, ⟨19, _⟩ => ⟨S_, .f32⟩
  | .hbm, ⟨20, _⟩ => ⟨S1024x1, .f32⟩
  | .hbm, ⟨21, _⟩ => ⟨S1024x1, .f32⟩
  | .hbm, ⟨22, _⟩ => ⟨S1024x1024, .f32⟩
  | .hbm, ⟨23, _⟩ => ⟨S1024x1024, .f32⟩
  | .hbm, ⟨24, _⟩ => ⟨S_, .f32⟩
  | .hbm, ⟨25, _⟩ => ⟨S1024x1, .f32⟩
  | .hbm, ⟨26, _⟩ => ⟨S1024x1, .f32⟩
  | .hbm, ⟨27, _⟩ => ⟨S1024x1, .f32⟩
  | .hbm, ⟨28, _⟩ => ⟨S1024x1024, .f32⟩
  | .hbm, ⟨29, _⟩ => ⟨S1024x1024, .f32⟩
  | .hbm, ⟨30, _⟩ => ⟨S1x1024, .f32⟩
  | .hbm, ⟨31, _⟩ => ⟨S1024x1024, .f32⟩
  | .hbm, ⟨32, _⟩ => ⟨S1024x1024, .f32⟩
  | .hbm, ⟨33, _⟩ => ⟨S1x1024, .f32⟩
  | .hbm, ⟨34, _⟩ => ⟨S1024x1024, .f32⟩
  | .hbm, ⟨35, _⟩ => ⟨S1024x1024, .f32⟩
  | .hbm, ⟨36, _⟩ => ⟨S1024x1, .f32⟩
  | .hbm, ⟨37, _⟩ => ⟨S1x1, .f32⟩
  | .hbm, ⟨38, _⟩ => ⟨S1024x1, .f32⟩
  | .hbm, ⟨39, _⟩ => ⟨S1024x1, .f32⟩
  | .hbm, ⟨40, _⟩ => ⟨S1024x1, .f32⟩
  | .hbm, ⟨41, _⟩ => ⟨S1024x1, .f32⟩
  | .hbm, ⟨42, _⟩ => ⟨S_, .f32⟩
  | .hbm, ⟨43, _⟩ => ⟨S1024x1, .f32⟩
  | .hbm, ⟨44, _⟩ => ⟨S1024x1, .f32⟩
  | .hbm, ⟨45, _⟩ => ⟨S_, .f32⟩
  | .hbm, ⟨46, _⟩ => ⟨S1024x1, .f32⟩
  | .hbm, ⟨47, _⟩ => ⟨S1024x1, .f32⟩
  | _, _ => ⟨S1024x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_cst_1 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩

abbrev nD : Nat := 1
abbrev τ : Topo := Topo.v7x

variable {F : FTy → Type} [FloatOps F]

class Facts₀ : Prop where
  reducesTo_S1024x256x1024_S1024x1024_d1 : S1024x256x1024.ReducesTo [1] S1024x1024
  h_S_ : 0 < S_.numel
  reducesTo_S1024x1024_S1024_d1 : S1024x1024.ReducesTo [1] S1024
  bcast_S1024_S1024x1_0 : S1024.BroadcastsInDim S1024x1 (![0] : Fin 1 → Fin S1024x1.rank)
  bcast_S_S1024x1 : S_.BroadcastsInDim S1024x1 (![] : Fin 0 → Fin S1024x1.rank)
  bcast_S1024x1_S1024x1024_0_1 : S1024x1.BroadcastsInDim S1024x1024 (![0, 1] : Fin 2 → Fin S1024x1024.rank)
  bcast_S1024_S1x1024_1 : S1024.BroadcastsInDim S1x1024 (![1] : Fin 1 → Fin S1x1024.rank)
  bcast_S1x1024_S1024x1024_0_1 : S1x1024.BroadcastsInDim S1024x1024 (![0, 1] : Fin 2 → Fin S1024x1024.rank)
  bcast_S1_S1x1_1 : S1.BroadcastsInDim S1x1 (![1] : Fin 1 → Fin S1x1.rank)
  bcast_S1x1_S1024x1_0_1 : S1x1.BroadcastsInDim S1024x1 (![0, 1] : Fin 2 → Fin S1024x1.rank)
  dot_S1024x1024_S1x1024_S1024x1_1_1_0_0_n_n_wf : DotDims.WF S1024x1024 S1x1024 S1024x1 [1] [1] [0] [0] [] []

variable [Facts₀]

def dot_S1024x1024_S1x1024_S1024x1_1_1_0_0_n_n : DotDims S1024x1024 S1x1024 S1024x1 where
  lhsContracting := [1]
  rhsContracting := [1]
  lhsNonContracting := [0]
  rhsNonContracting := [0]
  lhsBatch := []
  rhsBatch := []
  wf := dot_S1024x1024_S1x1024_S1024x1_1_1_0_0_n_n_wf

class Facts : Prop extends Facts₀ where

variable [Facts]
-- ==== Proof.Pieces.lean ====
/-
  What one run of the kernel body leaves behind, as values of its inputs.

  The body does one of three things, by the position n of the grid point along the node axis:
    * first step (n = 0):   the accumulator is cleared, then the tile's node sum is added to the cleared value;
    * middle steps:         the tile's node sum is added to what the previous step left;
    * last step (n = 7):    the same addition, and then the output column is computed from the fresh
                            accumulator (normalise, project, squash).
  Each buffer is written by stores that cover it whole, so what it holds afterwards is the last store's
  value; a load that follows a store of the same run reads that store's value back.  The stored values
  are the body's three payloads: `k0_pay1` (zero), `k0_pay2 old tile` (old + node sum of the tile) and
  `k0_pay3 acc …` (the finished column).
-/
import proofs.«104153_j39513699123758_1_alg».proof.Proof.Gen.KernelIdeal.Frame
import Idealize.ShloMosaic.Lib.Pipeline.Value
import Idealize.ShloMosaic.Lib.Tactic

set_option maxRecDepth 16384

noncomputable section

namespace Cert.KernelIdeal.Bridge

open Cert.KernelIdeal Cert.KernelIdeal.Gen Idealize.ShloMosaic Idealize.ShloMosaic.TcCoe Idealize.SL.Sem Idealize.ShloMosaic.Tactic

variable {F : FTy → Type} [FloatOps F]

theorem origin2 : (![0, 0] : Fin 2 → Nat) = fun _ => 0 := funext fun a => by fin_cases a <;> rfl
theorem origin3 : (![0, 0, 0] : Fin 3 → Nat) = fun _ => 0 := funext fun a => by fin_cases a <;> rfl

/-- First step: the accumulator ends at the cleared value plus the tile's node sum. -/
theorem scratch_first (c : Dev nD) (i : grid0.Coords) (arg2 : Memref sig .tc .vmem S128x32x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1 .f32) (harg6 : arg6.IsWhole) (arg7 : Memref sig .tc .vmem S128x1 .f32) (harg7 : arg7.IsWhole) (arg8 : Memref sig .tc .vmem S128x1024 .f32) (harg8 : arg8.IsWhole) (hc0 : cond0_0 i) (hc1 : ¬cond0_1 i) (x0 : Vec F S128x32x1024 .f32) (x1 : Vec F S1x1024 .f32) (x2 : Vec F S1x1024 .f32) (x3 : Vec F S1x1024 .f32) (x4 : Vec F S1x1 .f32) :
    sout0_A_0 c i arg2 harg2 arg3 harg3 arg4 harg4 arg5 harg5 arg6 harg6 arg7 harg7 arg8 harg8 hc0 hc1 x0 x1 x2 x3 x4 = k0_pay2 (k0_pay1 (F := F)) x0 := by
  unfold sout0_A_0
  rw [View.read_writes_eq_canon _ _ _ (scover0_A_0 c i arg2 harg2 arg3 harg3 arg4 harg4 arg5 harg5 arg6 harg6 arg7 harg7 arg8 harg8 hc0 hc1 x0 x1 x2 x3 x4)]
  unfold kernelRun0_A
  dsimp only
  sl_unfold_words
  rw [View.canon_cons_unit_zero (S := S128x1024) origin2, View.readCov_unit_zero (S := S128x1024) _ origin2]
  simp only [View.readAt_eq_ld, harg2.read_unread, View.ld_unit_zero (S := S128x32x1024) origin3]

/-- Middle step: the accumulator ends at what it held plus the tile's node sum. -/
theorem scratch_middle (c : Dev nD) (i : grid0.Coords) (arg2 : Memref sig .tc .vmem S128x32x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1 .f32) (harg6 : arg6.IsWhole) (arg7 : Memref sig .tc .vmem S128x1 .f32) (harg7 : arg7.IsWhole) (arg8 : Memref sig .tc .vmem S128x1024 .f32) (harg8 : arg8.IsWhole) (hc0 : ¬cond0_0 i) (hc1 : ¬cond0_1 i) (x0 : Vec F S128x32x1024 .f32) (x1 : Vec F S1x1024 .f32) (x2 : Vec F S1x1024 .f32) (x3 : Vec F S1x1024 .f32) (x4 : Vec F S1x1 .f32) (xs0 : Vec F S128x1024 .f32) :
    sout0_B_0 c i arg2 harg2 arg3 harg3 arg4 harg4 arg5 harg5 arg6 harg6 arg7 harg7 arg8 harg8 hc0 hc1 x0 x1 x2 x3 x4 xs0 = k0_pay2 xs0 x0 := by
  unfold sout0_B_0
  rw [View.read_writes_eq_canon _ _ _ (scover0_B_0 c i arg2 harg2 arg3 harg3 arg4 harg4 arg5 harg5 arg6 harg6 arg7 harg7 arg8 harg8 hc0 hc1 x0 x1 x2 x3 x4 xs0)]
  unfold kernelRun0_B
  dsimp only
  sl_unfold_words
  rw [View.canon_unit_zero origin2]
  simp only [View.readAt_eq_ld, harg2.read_unread, harg8.read_unread, View.ld_unit_zero (S := S128x32x1024) origin3,
    View.ld_unit_zero (S := S128x1024) origin2]

/-- Last step: the accumulator ends at what it held plus the tile's node sum, -/
theorem scratch_last (c : Dev nD) (i : grid0.Coords) (arg2 : Memref sig .tc .vmem S128x32x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1 .f32) (harg6 : arg6.IsWhole) (arg7 : Memref sig .tc .vmem S128x1 .f32) (harg7 : arg7.IsWhole) (arg8 : Memref sig .tc .vmem S128x1024 .f32) (harg8 : arg8.IsWhole) (hc0 : ¬cond0_0 i) (hc1 : cond0_1 i) (x0 : Vec F S128x32x1024 .f32) (x1 : Vec F S1x1024 .f32) (x2 : Vec F S1x1024 .f32) (x3 : Vec F S1x1024 .f32) (x4 : Vec F S1x1 .f32) (xs0 : Vec F S128x1024 .f32) :
    sout0_C_0 c i arg2 harg2 arg3 harg3 arg4 harg4 arg5 harg5 arg6 harg6 arg7 harg7 arg8 harg8 hc0 hc1 x0 x1 x2 x3 x4 xs0 = k0_pay2 xs0 x0 := by
  unfold sout0_C_0
  rw [View.read_writes_eq_canon _ _ _ (scover0_C_0 c i arg2 harg2 arg3 harg3 arg4 harg4 arg5 harg5 arg6 harg6 arg7 harg7 arg8 harg8 hc0 hc1 x0 x1 x2 x3 x4 xs0)]
  unfold kernelRun0_C
  dsimp only
  sl_unfold_words
  rw [View.canon_unit_zero origin2]
  simp only [View.readAt_eq_ld, harg2.read_unread, harg8.read_unread, View.ld_unit_zero (S := S128x32x1024) origin3,
    View.ld_unit_zero (S := S128x1024) origin2]

/-- and the output column is the finishing payload of that fresh accumulator and the four small inputs. -/
theorem column_last (c : Dev nD) (i : grid0.Coords) (arg2 : Memref sig .tc .vmem S128x32x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1 .f32) (harg6 : arg6.IsWhole) (arg7 : Memref sig .tc .vmem S128x1 .f32) (harg7 : arg7.IsWhole) (arg8 : Memref sig .tc .vmem S128x1024 .f32) (harg8 : arg8.IsWhole) (hc0 : ¬cond0_0 i) (hc1 : cond0_1 i) (x0 : Vec F S128x32x1024 .f32) (x1 : Vec F S1x1024 .f32) (x2 : Vec F S1x1024 .f32) (x3 : Vec F S1x1024 .f32) (x4 : Vec F S1x1 .f32) (xs0 : Vec F S128x1024 .f32) :
    out0_C_5 c i arg2 harg2 arg3 harg3 arg4 harg4 arg5 harg5 arg6 harg6 arg7 harg7 arg8 harg8 hc0 hc1 x0 x1 x2 x3 x4 xs0 = k0_pay3 (k0_pay2 xs0 x0) x1 x2 x3 x4 := by
  unfold out0_C_5
  rw [View.read_writes_eq_canon _ _ _ (cover0_C_5 c i arg2 harg2 arg3 harg3 arg4 harg4 arg5 harg5 arg6 harg6 arg7 harg7 arg8 harg8 hc0 hc1 x0 x1 x2 x3 x4 xs0)]
  unfold kernelRun0_C
  dsimp only
  sl_unfold_words
  rw [View.canon_unit_zero origin2]
  simp only [View.readAt_eq_ld, harg2.read_unread, harg3.read_unread, harg4.read_unread, harg5.read_unread, harg6.read_unread,
    harg8.read_unread, View.readCov_unit_zero (S := S128x1024) _ origin2, View.ld_unit_zero (S := S128x32x1024) origin3,
    View.ld_unit_zero (S := S128x1024) origin2, View.ld_unit_zero (S := S1x1024) origin2, View.ld_unit_zero (S := S1x1) origin2]

end Cert.KernelIdeal.Bridge

end
-- ==== Proof.Spec.lean ====
/-
  The function both programs compute, over the extended reals.

  For each of the 1024 batch rows r:
    * pool the 256 nodes:          s r c   = Σ_n x[r, n, c]
    * normalise over 1024 channels: μ = (Σ_c s r c) / 1024,  d c = s r c − μ,  σ² = (Σ_c d c · d c) / 1024,
                                    h c = d c · rsqrt(σ² + ε) · w_ln c + b_ln c
    * project to one logit:        ℓ = (Σ_c h c · W c) + b
    * squash:                      y r = logistic ℓ
  Every scalar operation is the exact one of the extended reals (quotient, reciprocal square root and
  logistic with their conventions at 0 and ±∞); the two literals 1024 and ε are kept as their float words,
  which are the same words on both sides and are never evaluated.

  The only rearrangement between the two programs is in the pooling: one side adds the 256 nodes at once,
  the other adds eight consecutive tiles of 32 nodes one after the other.  Addition of extended reals is
  commutative and associative, so the two agree without any finiteness assumption (`sum_tiles`).
-/
import Idealize.ShloMosaic.PureOps.Ideal
import Idealize.ShloMosaic.PureOps.Ideal.Laws
import Idealize.ShloMosaic.Lib.ValueIdx

noncomputable section

namespace Cert.PooledNormHead

open Idealize.ShloMosaic Idealize.ShloMosaic.ValueIdx

/-- The channel count 1024 and the variance offset ε, as the float words both programs print. -/
def nChan : EReal := Ideal.ofBits .f32 0x44800000#32
def eps : EReal := Ideal.ofBits .f32 0x3727C5AC#32

/-! ## One row -/

/-- The mean of a row of 1024 channel values. -/
def rowMean (s : Fin 1024 → EReal) : EReal := Ideal.div (∑ c, s c) nChan

/-- A channel's deviation from its row's mean. -/
def centred (s : Fin 1024 → EReal) (c : Fin 1024) : EReal := s c - rowMean s

/-- The mean squared deviation of a row. -/
def rowVar (s : Fin 1024 → EReal) : EReal := Ideal.div (∑ c, centred s c * centred s c) nChan

/-- The normalised, scaled and shifted channel value. -/
def normed (s wln bln : Fin 1024 → EReal) (c : Fin 1024) : EReal :=
  centred s c * Ideal.rsqrt (rowVar s + eps) * wln c + bln c

/-- The row's logit: the normalised channels against the projection row, plus the bias. -/
def logit (s wln bln w : Fin 1024 → EReal) (b : EReal) : EReal := (∑ c, normed s wln bln c * w c) + b

/-- The row's output. -/
def rowOut (s wln bln w : Fin 1024 → EReal) (b : EReal) : EReal := Ideal.logistic (logit s wln bln w b)

/-! ## The arrays -/

/-- Row `r`, channel `c` pooled over the 256 nodes. -/
def pooled (x : (⟨3, ![1024, 256, 1024]⟩ : Shape).Idx → EReal) (r c : Fin 1024) : EReal := ∑ n : Fin 256, x (ix3 r n c)

/-- The whole result, index by index: row `i 0` of the [1024, 1] output is that row's `rowOut`. -/
def G (x : (⟨3, ![1024, 256, 1024]⟩ : Shape).Idx → EReal) (wln bln : (⟨1, ![1024]⟩ : Shape).Idx → EReal)
    (w : (⟨2, ![1, 1024]⟩ : Shape).Idx → EReal) (b : (⟨1, ![1]⟩ : Shape).Idx → EReal) :
    (⟨2, ![1024, 1]⟩ : Shape).Idx → EReal :=
  fun i => rowOut (pooled x (i 0)) (fun c => wln (ix1 c)) (fun c => bln (ix1 c)) (fun c => w (ix2 (0 : Fin 1) c)) (b (ix1 (0 : Fin 1)))

/-! ## Pooling tile by tile -/

/-- `x` at natural coordinates, zero off the array: partial sums over tiles are then written with no bound
    proofs inside the sum. -/
def atNat (x : (⟨3, ![1024, 256, 1024]⟩ : Shape).Idx → EReal) (r n c : ℕ) : EReal :=
  if h : r < 1024 ∧ n < 256 ∧ c < 1024 then x (ix3 ⟨r, h.1⟩ ⟨n, h.2.1⟩ ⟨c, h.2.2⟩) else 0

theorem atNat_of_lt (x : (⟨3, ![1024, 256, 1024]⟩ : Shape).Idx → EReal) {r n c : ℕ} (hr : r < 1024) (hn : n < 256) (hc : c < 1024) :
    atNat x r n c = x (ix3 ⟨r, hr⟩ ⟨n, hn⟩ ⟨c, hc⟩) := dif_pos ⟨hr, hn, hc⟩

/-- One tile of 32 consecutive nodes, tile `s`, summed. -/
def tileSum (x : (⟨3, ![1024, 256, 1024]⟩ : Shape).Idx → EReal) (r s c : ℕ) : EReal := ∑ j : Fin 32, atNat x r (s * 32 + j.val) c

/-- Eight tiles of 32 nodes, added one after the other, are the 256 nodes added at once: node `n` is
    position `n % 32` of tile `n / 32`, a bijection between 8 × 32 pairs and 256 nodes. -/
theorem sum_tiles (x : (⟨3, ![1024, 256, 1024]⟩ : Shape).Idx → EReal) (r c : ℕ) (hr : r < 1024) (hc : c < 1024) :
    ∑ s ∈ Finset.range 8, tileSum x r s c = pooled x ⟨r, hr⟩ ⟨c, hc⟩ := by
  unfold tileSum pooled
  rw [Finset.sum_range (fun s => ∑ j : Fin 32, atNat x r (s * 32 + j.val) c)]
  rw [← Fintype.sum_prod_type' (fun (s : Fin 8) (j : Fin 32) => atNat x r (s.val * 32 + j.val) c)]
  rw [← Equiv.sum_comp (finProdFinEquiv : Fin 8 × Fin 32 ≃ Fin (8 * 32))
    (fun n : Fin (8 * 32) => x (ix3 (⟨r, hr⟩ : Fin 1024) (⟨n.val, n.isLt⟩ : Fin 256) (⟨c, hc⟩ : Fin 1024)))]
  refine Finset.sum_congr rfl fun p _ => ?_
  have hs := p.1.isLt
  have hj := p.2.isLt
  rw [atNat_of_lt x hr (by omega : p.1.val * 32 + p.2.val < 256) hc]
  congr 2
  apply Fin.ext
  show p.1.val * 32 + p.2.val = (finProdFinEquiv p).val
  rw [finProdFinEquiv_apply_val]
  omega

end Cert.PooledNormHead

end
-- ==== Proof.LibColumn.lean ====
/-
  Column-shaped layout operations read at an index given by coordinates.

  A row statistic of an [a, b] array is kept as a column [a, 1]: a rank-1 vector [a] is recast to [a, 1],
  and the column is spread back over the b lanes of each row.  Each lemma says which entry of the operand
  the result reads at (p, c):
    * [a]    recast to [a, 1] reads, at (p, u), the operand at p;
    * [a, 1] spread to [a, b] reads, at (p, c), the operand at (p, 0).
  The row-major position of (p, u) in [a, 1] is p * 1 + u with u = 0, which is the position of p in [a];
  a broadcast reads coordinate 0 on every unit axis of its operand and the matching trailing coordinate
  elsewhere.
-/
import Idealize.ShloMosaic.Lib.Pipeline.Value
import Idealize.ShloMosaic.Lib.ValueIdx

namespace Idealize.ShloMosaic.ValueIdx

open Idealize.ShloMosaic

variable {α : Type}

/-- An `[a]` array recast to the column `[a, 1]` reads, at `(p, u)`, the operand at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` spread over `b` lanes reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.Payload.lean ====
/-
  The kernel body's three stored values, read at an index over the extended reals.

    * the reset value is 0 everywhere;
    * the accumulation step stores, at (p, q), the old value there plus the sum over the 32 nodes of the
      tile, Σ_j tile[p, j, q];
    * the finishing step stores, at row p of the output column, `rowOut` of row p of the accumulator:
      the row's lane sum over 1024 channels divided by 1024 is its mean, the centred row squared and
      lane-summed and divided by 1024 its variance, and the normalised row times the projection row,
      lane-summed, plus the bias, goes through the logistic.
  Row statistics are kept as [128, 1] columns and spread back over the lanes; a column read at (p, c) is
  the statistic of row p.  Every pointwise operation is, at the extended reals, the scalar operation
  entry by entry, by definition.
-/
import proofs.«104153_j39513699123758_1_alg».proof.Proof.Gen.KernelIdeal.Skeleton
import proofs.«104153_j39513699123758_1_alg».proof.Proof.Spec
import proofs.«104153_j39513699123758_1_alg».proof.Proof.LibColumn
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Bridge

open Cert.KernelIdeal Cert.KernelIdeal.Gen Idealize.ShloMosaic Idealize.ShloMosaic.ValueIdx Cert.PooledNormHead

/-- The lane sum of a [128, 1024] block, at row `p`: the sum of that row's 1024 entries. -/
theorem laneSum_apply (v : FVec Ideal S128x1024 .f32) (h : S128x1024.Reduces [1] S128) (p : Fin 128) :
    multiReduction .add [1] S128 v 0x00000000#32 h (.inl rfl) rfl (ix1 p) = ∑ c : Fin 1024, v (ix2 p c) :=
  (Ideal.multiReduction_add_single v 0x00000000#32 h (.inl rfl) rfl (ix1 p)).trans
    (Finset.sum_congr rfl fun k _ => congrArg v (funext fun a => match a with | ⟨0, _⟩ => rfl | ⟨1, _⟩ => rfl))

/-- The sum over the 32 nodes of a [128, 32, 1024] tile, at (p, q). -/
theorem nodeSum_apply (v : FVec Ideal S128x32x1024 .f32) (h : S128x32x1024.Reduces [1] S128x1024) (p : Fin 128) (q : Fin 1024) :
    multiReduction .add [1] S128x1024 v 0x00000000#32 h (.inl rfl) rfl (ix2 p q) = ∑ j : Fin 32, v (ix3 p j q) :=
  (Ideal.multiReduction_add_single v 0x00000000#32 h (.inl rfl) rfl (ix2 p q)).trans
    (Finset.sum_congr rfl fun k _ => congrArg v (funext fun a => match a with | ⟨0, _⟩ => rfl | ⟨1, _⟩ => rfl | ⟨2, _⟩ => rfl))

/-- The reset value is zero at every index. -/
theorem reset_apply (i : S128x1024.Idx) : (k0_pay1 (F := Ideal)) i = 0 := by
  unfold k0_pay1
  simp only [shapeCast_self]
  exact Ideal.ofBits_zero_f32

/-- The accumulation step at (p, q): the old value plus the tile's 32 nodes summed. -/
theorem accum_apply (acc : FVec Ideal S128x1024 .f32) (tile : FVec Ideal S128x32x1024 .f32) (p : Fin 128) (q : Fin 1024) :
    k0_pay2 (F := Ideal) acc tile (ix2 p q) = acc (ix2 p q) + ∑ j : Fin 32, tile (ix3 p j q) := by
  unfold k0_pay2
  simp only [shapeCast_self]
  exact congrArg (acc (ix2 p q) + ·) (nodeSum_apply tile _ p q)

/-- The finishing step at row `p`: `rowOut` of the accumulator's row `p`, the scale, shift and projection rows,
    and the bias entry. -/
theorem finish_apply (acc : FVec Ideal S128x1024 .f32) (wln bln w : FVec Ideal S1x1024 .f32) (b : FVec Ideal S1x1 .f32)
    (p : Fin 128) (u : Fin 1) :
    k0_pay3 (F := Ideal) acc wln bln w b (ix2 p u)
      = rowOut (fun c => acc (ix2 p c)) (fun c => wln (ix2 (0 : Fin 1) c)) (fun c => bln (ix2 (0 : Fin 1) c))
          (fun c => w (ix2 (0 : Fin 1) c)) (b (ix2 (0 : Fin 1) u)) := by
  unfold k0_pay3
  simp only [shapeCast_self, logistic, addf, shapeCast_a_a1_apply, broadcastTo_1b_ab_apply]
  -- three lane sums (projection, variance, mean) alternate with pointwise layers: open whichever is on top
  repeat (first
    | erw [laneSum_apply]
    | simp only [mulf, addf, subf, rsqrt, divf, broadcast, broadcastTo_a1_ab_apply, broadcastTo_1b_ab_apply, shapeCast_a_a1_apply])
  rfl

end Cert.KernelIdeal.Bridge

end
-- ==== Proof.Blocks.lean ====
/-
  The input windows' blocks at a grid point, read at an index of the argument arrays.

  The 64 grid points run over 8 row tiles (outer) and 8 node tiles (inner): point t is row tile t / 8 and
  node tile t % 8.  The big input's block at point t holds rows (t / 8)·128 … +127, nodes (t % 8)·32 … +31
  and all 1024 channels; the four small inputs are each one block, the whole array, at every point.
  Three of the small arrays reach the kernel recast: the two length-1024 vectors as [1, 1024] rows and
  the length-1 bias as a [1, 1] entry, so row 0 of the recast array is the vector itself.
-/
import proofs.«104153_j39513699123758_1_alg».proof.Proof.Gen.KernelIdeal.Frame
import proofs.«104153_j39513699123758_1_alg».proof.Proof.Spec
import Idealize.ShloMosaic.Lib.Pipeline.Value
import Idealize.ShloMosaic.Lib.StableHlo.Run
import Idealize.ShloMosaic.Lib.ValueIdx
import Idealize.ShloMosaic.Lib.ValueLayout

noncomputable section

namespace Cert.KernelIdeal.Bridge

open Cert.KernelIdeal Cert.KernelIdeal.Gen Idealize.ShloMosaic Idealize.ShloMosaic.TcCoe Idealize.SL.Sem
open Idealize.ShloMosaic.ValueIdx Cert.PooledNormHead

variable (m : (ℓ : Loc nD τ sig) → Buf (Elt Ideal) ℓ)

/-! ## The arrays and blocks, at their literal types -/

/-- The five argument arrays as launched. -/
abbrev argX (c : Dev nD) : FVec Ideal S1024x256x1024 .f32 := m ((c : Thread nD τ).loc main_arg0)
abbrev argWln (c : Dev nD) : FVec Ideal S1024 .f32 := m ((c : Thread nD τ).loc main_arg1)
abbrev argBln (c : Dev nD) : FVec Ideal S1024 .f32 := m ((c : Thread nD τ).loc main_arg2)
abbrev argW (c : Dev nD) : FVec Ideal S1x1024 .f32 := m ((c : Thread nD τ).loc main_arg3)
abbrev argB (c : Dev nD) : FVec Ideal S1 .f32 := m ((c : Thread nD τ).loc main_arg4)

/-- The five input blocks at point `t`. -/
abbrev tile (c : Dev nD) (t : Fin cfg0.N) : FVec Ideal S128x32x1024 .f32 := iblk m c 0 t
abbrev wlnBlk (c : Dev nD) (t : Fin cfg0.N) : FVec Ideal S1x1024 .f32 := iblk m c 1 t
abbrev blnBlk (c : Dev nD) (t : Fin cfg0.N) : FVec Ideal S1x1024 .f32 := iblk m c 2 t
abbrev wBlk (c : Dev nD) (t : Fin cfg0.N) : FVec Ideal S1x1024 .f32 := iblk m c 3 t
abbrev bBlk (c : Dev nD) (t : Fin cfg0.N) : FVec Ideal S1x1 .f32 := iblk m c 4 t

/-! ## Where each block sits -/

/-- The block indices at point `t`, decided over the 64 points: the big input and the output follow the row
    tile `t / 8` (and the big input the node tile `t % 8`); the small inputs stay at block 0. -/
theorem block_index : ∀ t : Fin cfg0.N,
    win0_0.index t (0 : Fin 3) = t.val / 8 ∧ win0_0.index t (1 : Fin 3) = t.val % 8 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val / 8 ∧ win0_5.index t (1 : Fin 2) = 0 :=
  (by decide +kernel : ∀ t : Fin grid0.N, _)

/-! ## The big input -/

/-- The tile at point `t`, at (p, j, q), is the big input at row (t / 8)·128 + p, node (t % 8)·32 + j, channel q. -/
theorem tile_apply (c : Dev nD) (t : Fin cfg0.N) (p : Fin 128) (j : Fin 32) (q : Fin 1024) :
    tile m c t (ix3 p j q) = atNat (argX m c) (t.val / 8 * 128 + p.val) (t.val % 8 * 32 + j.val) q.val := by
  have hN : t.val < 64 := lt_of_lt_of_eq t.isLt (show cfg0.N = 64 from N_0)
  obtain ⟨e0, e1, e2, -⟩ := block_index t
  have hp := p.isLt
  have hj := j.isLt
  rw [atNat_of_lt (argX m c) (by omega : t.val / 8 * 128 + p.val < 1024) (by omega : t.val % 8 * 32 + j.val < 256) q.isLt]
  unfold tile iblk
  rw [View.read_apply]
  show V m c main_arg0 _ = argX m c _
  rw [V_main_arg0]
  show argX m c _ = argX m c _
  congr 1
  funext a
  apply Fin.ext
  match a with
  | ⟨0, _⟩ => show win0_0.index t (0 : Fin 3) * 128 + 1 * p.val = t.val / 8 * 128 + p.val; rw [e0]; omega
  | ⟨1, _⟩ => show win0_0.index t (1 : Fin 3) * 32 + 1 * j.val = t.val % 8 * 32 + j.val; rw [e1]; omega
  | ⟨2, _⟩ => show win0_0.index t (2 : Fin 3) * 1024 + 1 * q.val = q.val; rw [e2]; omega

/-! ## The small inputs -/

/-- The recast arrays the region finds: the scale and shift vectors as one row, the bias as one entry. -/
theorem wln_recast (c : Dev nD) :
    (V m c main_v0 : FVec Ideal S1x1024 .f32) = shapeCast S1x1024 (argWln m c) shapeCasts_S1024_S1x1024 := by
  dsimp only [V, hostOps0]; after_results; rfl

theorem bln_recast (c : Dev nD) :
    (V m c main_v1 : FVec Ideal S1x1024 .f32) = shapeCast S1x1024 (argBln m c) shapeCasts_S1024_S1x1024 := by
  dsimp only [V, hostOps0]; after_results; rfl

theorem b_recast (c : Dev nD) :
    (V m c main_v2 : FVec Ideal S1x1 .f32) = shapeCast S1x1 (argB m c) shapeCasts_S1_S1x1 := by
  dsimp only [V, hostOps0]; after_results; rfl

/-- The scale block, at (0, k), is the scale vector at k. -/
theorem wlnBlk_apply (c : Dev nD) (t : Fin cfg0.N) (k : Fin 1024) : wlnBlk m c t (ix2 (0 : Fin 1) k) = argWln m c (ix1 k) := by
  obtain ⟨-, -, -, e0, e1, -⟩ := block_index t
  unfold wlnBlk iblk
  rw [View.read_apply]
  show (V m c main_v0 : FVec Ideal S1x1024 .f32) _ = _
  rw [wln_recast]
  refine (congrArg _ (?_ : _ = ix2 (0 : Fin 1) k)).trans (shapeCast_a_1a_apply _ _ 0 k)
  funext a
  apply Fin.ext
  match a with
  | ⟨0, _⟩ => show win0_1.index t (0 : Fin 2) * 1 + 1 * 0 = 0; rw [e0]
  | ⟨1, _⟩ => show win0_1.index t (1 : Fin 2) * 1024 + 1 * k.val = k.val; rw [e1]; omega

/-- The shift block, at (0, k), is the shift vector at k. -/
theorem blnBlk_apply (c : Dev nD) (t : Fin cfg0.N) (k : Fin 1024) : blnBlk m c t (ix2 (0 : Fin 1) k) = argBln m c (ix1 k) := by
  obtain ⟨-, -, -, -, -, e0, e1, -⟩ := block_index t
  unfold blnBlk iblk
  rw [View.read_apply]
  show (V m c main_v1 : FVec Ideal S1x1024 .f32) _ = _
  rw [bln_recast]
  refine (congrArg _ (?_ : _ = ix2 (0 : Fin 1) k)).trans (shapeCast_a_1a_apply _ _ 0 k)
  funext a
  apply Fin.ext
  match a with
  | ⟨0, _⟩ => show win0_2.index t (0 : Fin 2) * 1 + 1 * 0 = 0; rw [e0]
  | ⟨1, _⟩ => show win0_2.index t (1 : Fin 2) * 1024 + 1 * k.val = k.val; rw [e1]; omega

/-- The projection block is the projection row. -/
theorem wBlk_apply (c : Dev nD) (t : Fin cfg0.N) (k : Fin 1024) : wBlk m c t (ix2 (0 : Fin 1) k) = argW m c (ix2 (0 : Fin 1) k) := by
  obtain ⟨-, -, -, -, -, -, -, e0, e1, -⟩ := block_index t
  unfold wBlk iblk
  rw [View.read_apply]
  show V m c main_arg3 _ = argW m c _
  rw [V_main_arg3]
  show argW m c _ = argW m c _
  congr 1
  funext a
  apply Fin.ext
  match a with
  | ⟨0, _⟩ => show win0_3.index t (0 : Fin 2) * 1 + 1 * 0 = 0; rw [e0]
  | ⟨1, _⟩ => show win0_3.index t (1 : Fin 2) * 1024 + 1 * k.val = k.val; rw [e1]; omega

/-- The bias block's one entry is the bias. -/
theorem bBlk_apply (c : Dev nD) (t : Fin cfg0.N) (u : Fin 1) : bBlk m c t (ix2 (0 : Fin 1) u) = argB m c (ix1 (0 : Fin 1)) := by
  obtain ⟨-, -, -, -, -, -, -, -, -, e0, e1, -⟩ := block_index t
  have hu : u.val = 0 := by omega
  unfold bBlk iblk
  rw [View.read_apply]
  show (V m c main_v2 : FVec Ideal S1x1 .f32) _ = _
  rw [b_recast]
  refine (congrArg _ (?_ : _ = ix2 (0 : Fin 1) (0 : Fin 1))).trans (shapeCast_a_1a_apply _ _ 0 0)
  funext a
  apply Fin.ext
  match a with
  | ⟨0, _⟩ => show win0_4.index t (0 : Fin 2) * 1 + 1 * 0 = 0; rw [e0]
  | ⟨1, _⟩ => show win0_4.index t (1 : Fin 2) * 1 + 1 * u.val = 0; rw [e1, hu]

end Cert.KernelIdeal.Bridge

end
-- ==== Proof.Accumulate.lean ====
/-
  The accumulator across the grid, and the column the last step of each row tile writes.

  Within one row tile (8 consecutive grid points, node tiles 0 … 7) the accumulator is cleared at the first
  point and grows by one tile's node sum at every point.  So after the point with node tile k it holds, at
  (p, q), the node sums of tiles 0 … k of row (row tile)·128 + p, channel q, added up (`seen`): by induction
  on the point, the first point of a row tile starting afresh (0 + tile 0) and every other point adding its
  tile to what the point before left.  At node tile 7 all eight tiles are in, which is the sum over all 256
  nodes (`sum_tiles`), and the finishing step turns each accumulator row into that row's output.
-/
import proofs.«104153_j39513699123758_1_alg».proof.Proof.Pieces
import proofs.«104153_j39513699123758_1_alg».proof.Proof.Payload
import proofs.«104153_j39513699123758_1_alg».proof.Proof.Blocks

noncomputable section

namespace Cert.KernelIdeal.Bridge

open Cert.KernelIdeal Cert.KernelIdeal.Gen Idealize.ShloMosaic Idealize.ShloMosaic.TcCoe Idealize.SL.Sem
open Idealize.ShloMosaic.ValueIdx Cert.PooledNormHead

variable (m : (ℓ : Loc nD τ sig) → Buf (Elt Ideal) ℓ)

/-- What the accumulator holds after point `t`. -/
abbrev accAfter (c : Dev nD) (n : ℕ) (hn : n < cfg0.N) : FVec Ideal S128x1024 .f32 := (outsAt0 m c n hn).2

/-- What the output's staging column holds after point `t`. -/
abbrev colAfter (c : Dev nD) (n : ℕ) (hn : n < cfg0.N) : FVec Ideal S128x1 .f32 := (outsAt0 m c n hn).1

/-! ## One step, by the point's position in its row tile -/

theorem acc_first (c : Dev nD) (t : Fin cfg0.N) (h0 : t.val % 8 = 0) (h1 : ¬t.val % 8 = 7) :
    accAfter m c t.val t.isLt = k0_pay2 (k0_pay1 (F := Ideal)) (tile m c t) := by
  unfold accAfter
  rw [outsAt0_A m c t h0 h1]
  dsimp only
  exact scratch_first (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk m c 0 t) (iblk m c 1 t) (iblk m c 2 t) (iblk m c 3 t) (iblk m c 4 t)

theorem acc_middle (c : Dev nD) (t : Fin cfg0.N) (h0 : ¬t.val % 8 = 0) (h1 : ¬t.val % 8 = 7) :
    accAfter m c t.val t.isLt
      = k0_pay2 (accAfter m c (t.val - 1) (Nat.lt_of_le_of_lt (Nat.sub_le _ _) t.isLt)) (tile m c t) := by
  unfold accAfter
  rw [outsAt0_B m c t h0 h1]
  dsimp only
  exact scratch_middle (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t)
    (outsAt0 m c (t.val - 1) (Nat.lt_of_le_of_lt (Nat.sub_le _ _) t.isLt)).2

theorem acc_last (c : Dev nD) (t : Fin cfg0.N) (h0 : ¬t.val % 8 = 0) (h1 : t.val % 8 = 7) :
    accAfter m c t.val t.isLt
      = k0_pay2 (accAfter m c (t.val - 1) (Nat.lt_of_le_of_lt (Nat.sub_le _ _) t.isLt)) (tile m c t) := by
  unfold accAfter
  rw [outsAt0_C m c t h0 h1]
  dsimp only
  exact scratch_last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) (iblk m c 2 t) (iblk m c 3 t) (iblk m c 4 t)
    (outsAt0 m c (t.val - 1) (Nat.lt_of_le_of_lt (Nat.sub_le _ _) t.isLt)).2

/-- At the last point of a row tile the output column is the finishing payload of the accumulator that point leaves. -/
theorem col_last (c : Dev nD) (t : Fin cfg0.N) (h0 : ¬t.val % 8 = 0) (h1 : t.val % 8 = 7) :
    colAfter m c t.val t.isLt
      = k0_pay3 (accAfter m c t.val t.isLt) (wlnBlk m c t) (blnBlk m c t) (wBlk m c t) (bBlk m c t) := by
  rw [acc_last m c t h0 h1]
  unfold colAfter accAfter
  rw [outsAt0_C m c t h0 h1]
  dsimp only
  exact column_last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) (iblk m c 2 t) (iblk m c 3 t) (iblk m c 4 t)
    (outsAt0 m c (t.val - 1) (Nat.lt_of_le_of_lt (Nat.sub_le _ _) t.isLt)).2

/-! ## The accumulator after any point -/

/-- The node sums of tiles 0 … n % 8 of row (n / 8)·128 + p, channel q, added up. -/
def seen (c : Dev nD) (n p q : ℕ) : EReal := ∑ s ∈ Finset.range (n % 8 + 1), tileSum (argX m c) (n / 8 * 128 + p) s q

/-- The tile's node sum at point `t` is tile `t % 8` of row tile `t / 8`. -/
theorem tile_nodeSum (c : Dev nD) (t : Fin cfg0.N) (p : Fin 128) (q : Fin 1024) :
    ∑ j : Fin 32, tile m c t (ix3 p j q) = tileSum (argX m c) (t.val / 8 * 128 + p.val) (t.val % 8) q.val := by
  unfold tileSum
  exact Finset.sum_congr rfl fun j _ => tile_apply m c t p j q

theorem acc_eq (c : Dev nD) : ∀ (n : ℕ) (hn : n < cfg0.N) (p : Fin 128) (q : Fin 1024),
    accAfter m c n hn (ix2 p q) = seen m c n p.val q.val
  | 0, hn, p, q => by
    rw [acc_first m c ⟨0, hn⟩ rfl (by dsimp only; omega), accum_apply, reset_apply, zero_add, tile_nodeSum]
    unfold seen
    rw [show (0 : ℕ) % 8 + 1 = 1 from rfl, Finset.sum_range_one]
    rfl
  | n + 1, hn, p, q => by
    have hN : n + 1 < 64 := lt_of_lt_of_eq hn (show cfg0.N = 64 from N_0)
    by_cases h0 : (n + 1) % 8 = 0
    · rw [acc_first m c ⟨n + 1, hn⟩ h0 (by dsimp only; omega), accum_apply, reset_apply, zero_add, tile_nodeSum]
      unfold seen
      dsimp only
      rw [h0, Finset.sum_range_one]
    · have step : accAfter m c (n + 1) hn = k0_pay2 (accAfter m c n (Nat.lt_of_succ_lt hn)) (tile m c ⟨n + 1, hn⟩) := by
        by_cases h1 : (n + 1) % 8 = 7
        · exact acc_last m c ⟨n + 1, hn⟩ h0 h1
        · exact acc_middle m c ⟨n + 1, hn⟩ h0 h1
      rw [step, accum_apply, acc_eq c n (Nat.lt_of_succ_lt hn) p q, tile_nodeSum]
      unfold seen
      dsimp only
      have e1 : n % 8 + 1 = (n + 1) % 8 := by omega
      have e2 : n / 8 = (n + 1) / 8 := by omega
      rw [Finset.sum_range_succ _ ((n + 1) % 8), e1, e2]

/-! ## The column written at the last point of a row tile -/

/-- At the last point of row tile `t / 8`, the output column at row `p` is the result `G` of the launched arrays
    at row (t / 8)·128 + p. -/
theorem col_eq (c : Dev nD) (t : Fin cfg0.N) (h1 : t.val % 8 = 7) (p : Fin 128) (u : Fin 1) (r : Fin 1024)
    (hr : r.val = t.val / 8 * 128 + p.val) :
    colAfter m c t.val t.isLt (ix2 p u) = G (argX m c) (argWln m c) (argBln m c) (argW m c) (argB m c) (ix2 r u) := by
  rw [col_last m c t (by omega) h1, finish_apply]
  unfold G
  have hs : (fun k : Fin 1024 => accAfter m c t.val t.isLt (ix2 p k)) = pooled (argX m c) r := by
    funext k
    rw [acc_eq m c t.val t.isLt p k]
    unfold seen
    rw [h1]
    have := sum_tiles (argX m c) (t.val / 8 * 128 + p.val) k.val (hr ▸ r.isLt) k.isLt
    rw [this]
    congr 1
    exact Fin.ext hr.symm
  rw [hs]
  congr 1
  · funext k; exact wlnBlk_apply m c t k
  · funext k; exact blnBlk_apply m c t k
  · funext k; exact wBlk_apply m c t k
  · exact bBlk_apply m c t u

end Cert.KernelIdeal.Bridge

end
-- ==== Proof.Result.lean ====
/-
  The kernel's result array, and its run.

  The output [1024, 1] is written back in blocks of 128 rows, one per row tile, at the last of the row
  tile's 8 grid points (node tile 7) and nowhere else.  The block written then is the finished column,
  whose row p is `G` of the launched arrays at row (row tile)·128 + p; so each written block is that block
  of `G`, the 8 written blocks cover all 1024 rows (row r lies in the block of row tile r / 128), and the
  array ends holding `G` everywhere.
-/
import proofs.«104153_j39513699123758_1_alg».proof.Proof.Accumulate
import proofs.«104153_j39513699123758_1_alg».proof.Proof.Gen.KernelIdeal.Value

noncomputable section

namespace Cert.KernelIdeal.Bridge

open Cert.KernelIdeal Cert.KernelIdeal.Gen Idealize.ShloMosaic Idealize.ShloMosaic.TcCoe Idealize.SL.Sem
open Idealize.ShloMosaic.Pipeline (Dat)
open Idealize.ShloMosaic.ValueIdx Cert.PooledNormHead

variable (m : (ℓ : Loc nD τ sig) → Buf (Elt Ideal) ℓ) (ρ : Dev nD → PrngReg)

/-- What the result array ends holding: `G` of the five arrays as launched. -/
abbrev result (c : Dev nD) : Buf (Elt Ideal) ((c : Thread nD τ).loc main_v3) :=
  G (argX m c) (argWln m c) (argBln m c) (argW m c) (argB m c)

/-- The block written back at the last point of a row tile is that block of `G`. -/
theorem written_block (c : Dev nD) (t : Fin cfg0.N) (hf : (cfg0.win 5).flush t = true) :
    (dats m 0 c).flushed 5 t = ((cfg0.win 5).blk t).view.read (Elt Ideal) (result m c) := by
  have h1 : t.val % 8 = 7 := (flush0_5 t).mp hf
  have hN : t.val < 64 := lt_of_lt_of_eq t.isLt (show cfg0.N = 64 from N_0)
  obtain ⟨-, -, -, -, -, -, -, -, -, -, -, e0, e1⟩ := block_index t
  rw [Value.flushed5]
  funext y
  have hy0 : (y 0).val < 128 := (y 0).isLt
  have hy1 : (y 1).val < 1 := (y 1).isLt
  rw [View.read_apply]
  show colAfter m c t.val t.isLt y = result m c (((cfg0.win 5).blk t).view.emb y)
  have key := col_eq m c t h1 ⟨(y 0).val, hy0⟩ ⟨(y 1).val, hy1⟩ ⟨t.val / 8 * 128 + (y 0).val, by omega⟩ rfl
  refine (congrArg (colAfter m c t.val t.isLt) (?_ : y = ix2 (⟨(y 0).val, hy0⟩ : Fin 128) (⟨(y 1).val, hy1⟩ : Fin 1))).trans
    (key.trans (congrArg (result m c) ?_))
  · funext a
    match a with
    | ⟨0, _⟩ => rfl
    | ⟨1, _⟩ => rfl
  · funext a
    apply Fin.ext
    match a with
    | ⟨0, _⟩ => show t.val / 8 * 128 + (y 0).val = win0_5.index t (0 : Fin 2) * 128 + 1 * (y 0).val; rw [e0]; omega
    | ⟨1, _⟩ => show (y 1).val = win0_5.index t (1 : Fin 2) * 1 + 1 * (y 1).val; rw [e1]; omega

/-- An index of the result array lies in point `t`'s block iff each coordinate is in the block's range. -/
theorem mem_block (t : Fin cfg0.N) (i : S1024x1.Idx) :
    i ∈ ((cfg0.win 5).blk t).view.set
      ↔ ∀ a : Fin 2, win0_5.index t a * S128x1.size a ≤ (i a).val ∧ (i a).val < win0_5.index t a * S128x1.size a + S128x1.size a := by
  show i ∈ ((View.whole main_v3).slice (win0_5.rect t)).set ↔ _
  rw [View.set_slice_whole, Rect.mem_set_unit]
  exact Iff.rfl

/-- Every row is written: row r by the last point of row tile r / 128. -/
theorem rows_covered (i : S1024x1.Idx) :
    ∃ t : Fin cfg0.N, (cfg0.win 5).flush t = true ∧ i ∈ ((cfg0.win 5).blk t).view.set := by
  have hi0 : (i 0).val < 1024 := (i 0).isLt
  have hi1 : (i 1).val < 1 := (i 1).isLt
  have hN : cfg0.N = 64 := N_0
  have ht : (i 0).val / 128 * 8 + 7 < cfg0.N := by rw [hN]; omega
  obtain ⟨-, -, -, -, -, -, -, -, -, -, -, e0, e1⟩ := block_index ⟨(i 0).val / 128 * 8 + 7, ht⟩
  refine ⟨⟨(i 0).val / 128 * 8 + 7, ht⟩, (flush0_5 _).mpr (by show ((i 0).val / 128 * 8 + 7) % 8 = 7; omega), ?_⟩
  rw [mem_block]
  intro a
  match a with
  | ⟨0, _⟩ =>
    show win0_5.index ⟨(i 0).val / 128 * 8 + 7, ht⟩ (0 : Fin 2) * 128 ≤ (i 0).val
      ∧ (i 0).val < win0_5.index ⟨(i 0).val / 128 * 8 + 7, ht⟩ (0 : Fin 2) * 128 + 128
    rw [e0]
    show ((i 0).val / 128 * 8 + 7) / 8 * 128 ≤ (i 0).val ∧ (i 0).val < ((i 0).val / 128 * 8 + 7) / 8 * 128 + 128
    omega
  | ⟨1, _⟩ =>
    show win0_5.index ⟨(i 0).val / 128 * 8 + 7, ht⟩ (1 : Fin 2) * 1 ≤ (i 1).val
      ∧ (i 1).val < win0_5.index ⟨(i 0).val / 128 * 8 + 7, ht⟩ (1 : Fin 2) * 1 + 1
    rw [e1]
    omega

/-- The result array after the run is `G` of the launched arrays. -/
theorem final_array (c : Dev nD) : (dats m 0 c).arrAt 5 cfg0.N = result m c :=
  (dats m 0 c).arrAt_eq_of_cover 5 (result m c) (written_block m c) rows_covered

/-- The kernel's run: the result array ends at `G` of the launched arrays, the arguments unchanged. -/
theorem run : θ_run defs (onTc (τ := τ) (main (F := Ideal))) ⟨m, fun _ => 0, ρ⟩ fun r => ∀ c : Dev nD,
      r.2.mem ((c : Thread nD τ).loc main_v3) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final_array m c), (h c).2⟩) (Value.run_blocks m ρ)

end Cert.KernelIdeal.Bridge

end
-- ==== Proof.RefIsG.lean ====
/-
  The reference computes `G`.

  Read one operation at a time, at the extended reals, the reference is exactly the row-by-row recipe:
  the sum over the node axis (from a zero initial value) is `pooled`; the sum over channels divided by
  1024 is the row mean, spread back over the row and subtracted; the squares summed and divided by 1024
  the variance; the reciprocal square root of variance + ε scales the centred row, which is then scaled
  and shifted channel by channel; the contraction with the single projection row is the sum over channels
  of products, to which the bias is added; and 1 / (1 + exp(−ℓ)) is the logistic of the logit ℓ.
  The host's quotient, reciprocal square root, negation and exponential are, at the extended reals, the
  same functions the kernel's operations denote, and a broadcast reads its operand at the matching
  coordinates, 0 on the unit axes.
-/
import proofs.«104153_j39513699123758_1_alg».proof.Proof.Gen.ReferenceIdeal.Read
import proofs.«104153_j39513699123758_1_alg».proof.Proof.Spec
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx
open Cert.PooledNormHead

variable (x0 : FVec Ideal S1024x256x1024 .f32) (x1 x2 : FVec Ideal S1024 .f32) (x3 : FVec Ideal S1x1024 .f32)
  (x4 : FVec Ideal S1 .f32)

/-- The float word of 1.0 denotes 1. -/
theorem one_word : Ideal.ofBits .f32 0x3F800000#32 = 1 := by
  simp [Ideal.ofBits, Ideal.ieee, -EReal.coe_mul]; norm_num

/-! ## Where each layout operation reads -/

theorem node_idx (r c : Fin 1024) (k : Fin 256) : idx_main_v0 (ix2 r c) k = ix3 r k c :=
  funext fun a => match a with | ⟨0, _⟩ => rfl | ⟨1, _⟩ => rfl | ⟨2, _⟩ => rfl
theorem chan_idx1 (r : Fin 1024) (u : Fin 1) (k : Fin 1024) : idx_main_v1 (idx_main_v2 (ix2 r u)) k = ix2 r k :=
  funext fun a => match a with | ⟨0, _⟩ => rfl | ⟨1, _⟩ => rfl
theorem chan_idx8 (r : Fin 1024) (u : Fin 1) (k : Fin 1024) : idx_main_v8 (idx_main_v9 (ix2 r u)) k = ix2 r k :=
  funext fun a => match a with | ⟨0, _⟩ => rfl | ⟨1, _⟩ => rfl
theorem col_idx5 (r c : Fin 1024) : idx_main_v5 (ix2 r c) = ix2 r (0 : Fin 1) :=
  funext fun a => match a with | ⟨0, _⟩ => rfl | ⟨1, _⟩ => rfl
theorem col_idx12 (r c : Fin 1024) : idx_main_v12 (ix2 r c) = ix2 r (0 : Fin 1) :=
  funext fun a => match a with | ⟨0, _⟩ => rfl | ⟨1, _⟩ => rfl
theorem col_idx17 (r c : Fin 1024) : idx_main_v17 (ix2 r c) = ix2 r (0 : Fin 1) :=
  funext fun a => match a with | ⟨0, _⟩ => rfl | ⟨1, _⟩ => rfl
theorem row_idx19 (r c : Fin 1024) : idx_main_v19 (idx_main_v20 (ix2 r c)) = ix1 c :=
  funext fun a => match a with | ⟨0, _⟩ => rfl
theorem row_idx22 (r c : Fin 1024) : idx_main_v22 (idx_main_v23 (ix2 r c)) = ix1 c :=
  funext fun a => match a with | ⟨0, _⟩ => rfl
theorem dot_lidx (r : Fin 1024) (u : Fin 1) (k : Fin 1024) : lidx_main_v25 (ix2 r u) k = ix2 r k :=
  funext fun a => match a with | ⟨0, _⟩ => rfl | ⟨1, _⟩ => rfl
theorem dot_ridx (r : Fin 1024) (u : Fin 1) (k : Fin 1024) : ridx_main_v25 (ix2 r u) k = ix2 u k :=
  funext fun a => match a with | ⟨0, _⟩ => rfl | ⟨1, _⟩ => rfl
theorem bias_idx (r : Fin 1024) (u : Fin 1) : idx_main_v26 (idx_main_v27 (ix2 r u)) = ix1 (0 : Fin 1) :=
  funext fun a => match a with | ⟨0, _⟩ => rfl

/-! ## Stage by stage -/

/-- The node-axis sum is `pooled`. -/
theorem pooled_apply (r c : Fin 1024) : val_main_v0 (F := Ideal) x0 (ix2 r c) = pooled x0 r c := by
  rw [val_main_v0_apply, val_main_cst_apply]
  show Ideal.ofBits .f32 0x00000000#32 + _ = _
  rw [Ideal.ofBits_zero_f32, zero_add]
  unfold pooled
  exact Finset.sum_congr rfl fun k _ => congrArg x0 (node_idx r c k)

/-- The channel sum divided by 1024 is the row mean. -/
theorem mean_apply (r : Fin 1024) (u : Fin 1) : val_main_v4 (F := Ideal) x0 (ix2 r u) = rowMean (pooled x0 r) := by
  rw [val_main_v4_apply, val_main_v2_apply, val_main_v1_apply, val_main_cst_0_apply, val_main_v3_apply, val_main_cst_1_apply]
  show Ideal.div (Ideal.ofBits .f32 0x00000000#32 + _) (Ideal.ofBits .f32 0x44800000#32) = _
  rw [Ideal.ofBits_zero_f32, zero_add]
  unfold rowMean nChan
  refine congrArg (Ideal.div · _) (Finset.sum_congr rfl fun k _ => ?_)
  rw [chan_idx1, pooled_apply]

/-- The pooled row minus its mean (the reference forms it twice, once for the variance and once for the output). -/
theorem centred_apply (r c : Fin 1024) : val_main_v6 (F := Ideal) x0 (ix2 r c) = centred (pooled x0 r) c := by
  rw [val_main_v6_apply, val_main_v5_apply, col_idx5, mean_apply, pooled_apply]
  rfl

theorem centred_apply' (r c : Fin 1024) : val_main_v13 (F := Ideal) x0 (ix2 r c) = centred (pooled x0 r) c := by
  rw [val_main_v13_apply, val_main_v12_apply, col_idx12, mean_apply, pooled_apply]
  rfl

/-- The mean square of the centred row is the row variance. -/
theorem var_apply (r : Fin 1024) (u : Fin 1) : val_main_v11 (F := Ideal) x0 (ix2 r u) = rowVar (pooled x0 r) := by
  rw [val_main_v11_apply, val_main_v9_apply, val_main_v8_apply, val_main_cst_2_apply, val_main_v10_apply, val_main_cst_3_apply]
  show Ideal.div (Ideal.ofBits .f32 0x00000000#32 + _) (Ideal.ofBits .f32 0x44800000#32) = _
  rw [Ideal.ofBits_zero_f32, zero_add]
  unfold rowVar nChan
  refine congrArg (Ideal.div · _) (Finset.sum_congr rfl fun k _ => ?_)
  rw [chan_idx8, val_main_v7_apply, centred_apply]
  rfl

/-- The normalised, scaled and shifted row. -/
theorem normed_apply (r c : Fin 1024) :
    val_main_v24 (F := Ideal) x0 x1 x2 (ix2 r c) = normed (pooled x0 r) (fun k => x1 (ix1 k)) (fun k => x2 (ix1 k)) c := by
  rw [val_main_v24_apply, val_main_v21_apply, val_main_v18_apply, centred_apply', val_main_v17_apply, col_idx17,
    val_main_v16_apply, val_main_v15_apply, var_apply, val_main_v14_apply, val_main_cst_4_apply,
    val_main_v20_apply, val_main_v19_apply, row_idx19, val_main_v23_apply, val_main_v22_apply, row_idx22]
  rfl

/-- The contraction with the projection row, plus the bias, is the logit. -/
theorem logit_apply (r : Fin 1024) (u : Fin 1) :
    val_main_v28 (F := Ideal) x0 x1 x2 x3 x4 (ix2 r u)
      = logit (pooled x0 r) (fun k => x1 (ix1 k)) (fun k => x2 (ix1 k)) (fun k => x3 (ix2 (0 : Fin 1) k)) (x4 (ix1 (0 : Fin 1))) := by
  obtain rfl : u = 0 := Subsingleton.elim _ _
  rw [val_main_v28_apply, val_main_v25_apply, val_main_v27_apply, val_main_v26_apply, bias_idx]
  unfold logit
  refine congrArg (· + _) (Finset.sum_congr rfl fun k _ => ?_)
  rw [dot_lidx, dot_ridx, normed_apply]

/-- The reference's result is `G` of its arguments. -/
theorem ref_is_G : val_main_v34 (F := Ideal) x0 x1 x2 x3 x4 = G x0 x1 x2 x3 x4 := by
  funext i
  obtain ⟨r, u, rfl⟩ : ∃ (r : Fin 1024) (u : Fin 1), i = ix2 r u := ⟨i 0, i 1, eq_ix2 i⟩
  rw [val_main_v34_apply, val_main_v33_apply, val_main_cst_6_apply, val_main_v32_apply, val_main_v31_apply,
    val_main_cst_5_apply, val_main_v30_apply, val_main_v29_apply, logit_apply]
  unfold G rowOut
  show Ideal.div (Ideal.ofBits .f32 0x3F800000#32) (Ideal.ofBits .f32 0x3F800000#32 + Ideal.exp (-_)) = Ideal.logistic _
  rw [one_word]
  rfl

end Cert.ReferenceIdeal.RefValue

end
-- ==== Proof.lean ====
/-
  The node-pooled layer-norm head: a tiled, accumulating kernel against its one-pass reference, over the extended reals.

  Both programs compute, for each of 1024 batch rows, the logistic of a one-row linear projection of the
  layer-normalised sum of the row's 256 nodes (Proof/Spec.lean: `G`).  The reference does it in one pass
  (Proof/RefIsG.lean).  The kernel walks an 8 × 8 grid, row tiles by node tiles: for each row tile it clears
  an accumulator, adds the node sums of eight tiles of 32 nodes one after the other, and at the eighth
  finishes the 128 rows and writes them back (Proof/Pieces.lean, Payload.lean, Blocks.lean, Accumulate.lean,
  Result.lean).  The two agree because eight tile sums added in order are the sum over all 256 nodes —
  addition of extended reals is commutative and associative, so no finiteness of the inputs is used — and
  every other operation is the same scalar function on both sides, literal for literal.

  The three frames are the kernels' generated frame runs and the reference's generated run with its result
  dropped; the idealisation rewrote nothing, so it is preserved trivially.
-/
import proofs.«104153_j39513699123758_1_alg».proof.Defs
import proofs.«104153_j39513699123758_1_alg».proof.Proof.Gen.Kernel
import proofs.«104153_j39513699123758_1_alg».proof.Proof.Gen.Kernel.Skeleton
import proofs.«104153_j39513699123758_1_alg».proof.Proof.Gen.Kernel.Launch
import proofs.«104153_j39513699123758_1_alg».proof.Proof.Gen.Kernel.Points
import proofs.«104153_j39513699123758_1_alg».proof.Proof.Gen.Kernel.Frame
import proofs.«104153_j39513699123758_1_alg».proof.Proof.Gen.KernelIdeal
import proofs.«104153_j39513699123758_1_alg».proof.Proof.Gen.KernelIdeal.Skeleton
import proofs.«104153_j39513699123758_1_alg».proof.Proof.Gen.KernelIdeal.Launch
import proofs.«104153_j39513699123758_1_alg».proof.Proof.Gen.KernelIdeal.Points
import proofs.«104153_j39513699123758_1_alg».proof.Proof.Gen.KernelIdeal.Frame
import proofs.«104153_j39513699123758_1_alg».proof.Proof.Gen.ReferenceIdeal
import proofs.«104153_j39513699123758_1_alg».proof.Proof.Gen.Pre_finite_inputs
import proofs.«104153_j39513699123758_1_alg».proof.Proof.Gen.KernelIdeal.Value
import proofs.«104153_j39513699123758_1_alg».proof.Proof.Gen.ReferenceIdeal.Run
import proofs.«104153_j39513699123758_1_alg».proof.Proof.Gen.ReferenceIdeal.Read
import proofs.«104153_j39513699123758_1_alg».proof.Proof.Result
import proofs.«104153_j39513699123758_1_alg».proof.Proof.RefIsG
import Idealize.ShloMosaic.Adequacy
import Idealize.ShloMosaic.Init

noncomputable section

namespace Cert.Proof

open Idealize.ShloMosaic Idealize.SL.Sem Cert.Kernel

/-- The word-level kernel and its idealisation run, fault-free, leaving their arguments as launched. -/
theorem frame_kernel : Cert.frame_Kernel := fun m ρ _ => Cert.Kernel.Gen.frame m ρ
theorem frame_kernelIdeal : Cert.frame_KernelIdeal := fun m ρ _ => Cert.KernelIdeal.Gen.frame m ρ

/-- So does the reference: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the five arguments, the kernel's result array ends at `G` of the arguments and so
    does the reference's. -/
theorem algebraic : Cert.algebraic_KernelIdeal_ReferenceIdeal := by
  intro m ρ m' ρ' _ hagree
  refine ⟨fun c => Cert.KernelIdeal.Bridge.result m c, Cert.KernelIdeal.Bridge.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v34_eq, Cert.ReferenceIdeal.RefValue.ref_is_G,
    (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
